-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S256x4 : Shape := ⟨2, ![256, 4]⟩
abbrev S16x128 : Shape := ⟨2, ![16, 128]⟩
abbrev S16x64 : Shape := ⟨2, ![16, 64]⟩
abbrev S64x16 : Shape := ⟨2, ![64, 16]⟩
abbrev S128x16 : Shape := ⟨2, ![128, 16]⟩
abbrev S4x256 : Shape := ⟨2, ![4, 256]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S256x4 : S_.BroadcastsInDim S256x4 (![] : Fin 0 → Fin S256x4.rank)
  reducesTo_S256x4_S_d0_1 : S256x4.ReducesTo [0, 1] S_
  bcast_S_S16x128 : S_.BroadcastsInDim S16x128 (![] : Fin 0 → Fin S16x128.rank)
  reducesTo_S16x128_S_d0_1 : S16x128.ReducesTo [0, 1] S_
  bcast_S_S16x64 : S_.BroadcastsInDim S16x64 (![] : Fin 0 → Fin S16x64.rank)
  reducesTo_S16x64_S_d0_1 : S16x64.ReducesTo [0, 1] S_
  bcast_S_S64x16 : S_.BroadcastsInDim S64x16 (![] : Fin 0 → Fin S64x16.rank)
  reducesTo_S64x16_S_d0_1 : S64x16.ReducesTo [0, 1] S_
  bcast_S_S128x16 : S_.BroadcastsInDim S128x16 (![] : Fin 0 → Fin S128x16.rank)
  reducesTo_S128x16_S_d0_1 : S128x16.ReducesTo [0, 1] S_
  bcast_S_S4x256 : S_.BroadcastsInDim S4x256 (![] : Fin 0 → Fin S4x256.rank)
  reducesTo_S4x256_S_d0_1 : S4x256.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S128x16 .f32) (main_arg8 : FVec F S4x256 .f32) (main_arg9 : FVec F S1024 .f32) (main_v33 : IVec S_ 1) : IVec S_ 1 :=
  let main_v34 : FVec F S128x16 .f32 := Host.absf main_arg7
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S16x64 .f32) (main_arg5 : FVec F S64x16 .f32) (main_arg6 : FVec F S128x16 .f32) (main_arg7 : FVec F S128x16 .f32) (main_arg8 : FVec F S4x256 .f32) (main_arg9 : FVec F S1024 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x1024 .f32) (main_arg1 : FVec F S256x4 .f32) (main_arg2 : FVec F S16x128 .f32) (main_arg3 : FVec F S16x128 .f32) (main_arg4 : FVec F S16x64 .f32) (main_arg5 : FVec F S64x16 .f32) (main_arg6 : FVec F S128x16 .f32) (main_arg7 : FVec F S128x16 .f32) (main_arg8 : FVec F S4x256 .f32) (main_arg9 : FVec F S1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S256x4 .f32 := Host.absf main_arg1
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg4 main_arg5 main_arg6 main_arg7 main_arg8 main_arg9 main_v13 main_v16
-- ==== Kernel.lean ====
abbrev S1024x1024 : Shape := ⟨2, ![1024, 1024]⟩
abbrev S256x4 : Shape := ⟨2, ![256, 4]⟩
abbrev S16x128 : Shape := ⟨2, ![16, 128]⟩
abbrev S16x64 : Shape := ⟨2, ![16, 64]⟩
abbrev S64x16 : Shape := ⟨2, ![64, 16]⟩
abbrev S128x16 : Shape := ⟨2, ![128, 16]⟩
abbrev S4x256 : Shape := ⟨2, ![4, 256]⟩
abbrev S1024 : Shape := ⟨1, ![1024]⟩
abbrev S1024x4x8x8x4 : Shape := ⟨5, ![1024, 4, 8, 8, 4]⟩
abbrev S8x1024 : Shape := ⟨2, ![8, 1024]⟩
abbrev S2048x4 : Shape := ⟨2, ![2048, 4]⟩
abbrev S2048x256 : Shape := ⟨2, ![2048, 256]⟩
abbrev S8x4096x16 : Shape := ⟨3, ![8, 4096, 16]⟩
abbrev S8x16x4096 : Shape := ⟨3, ![8, 16, 4096]⟩
abbrev S4096x128 : Shape := ⟨2, ![4096, 128]⟩
abbrev S4096x16 : Shape := ⟨2, ![4096, 16]⟩
abbrev S512x128 : Shape := ⟨2, ![512, 128]⟩
abbrev S512x16 : Shape := ⟨2, ![512, 16]⟩
abbrev S128x64 : Shape := ⟨2, ![128, 64]⟩
abbrev S8x16x256x16 : Shape := ⟨4, ![8, 16, 256, 16]⟩
abbrev S8x256x16x16 : Shape := ⟨4, ![8, 256, 16, 16]⟩
abbrev S1x1024 : Shape := ⟨2, ![1, 1024]⟩

abbrev nBuf : Space → Nat
  | .hbm => 22
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S256x4, .f32⟩
  | .hbm, ⟨2, _⟩ => ⟨S16x128, .f32⟩
  | .hbm, ⟨3, _⟩ => ⟨S16x128, .f32⟩
  | .hbm, ⟨4, _⟩ => ⟨S16x64, .f32⟩
  | .hbm, ⟨5, _⟩ => ⟨S64x16, .f32⟩
  | .hbm, ⟨6, _⟩ => ⟨S128x16, .f32⟩
  | .hbm, ⟨7, _⟩ => ⟨S128x16, .f32⟩
  | .hbm, ⟨8, _⟩ => ⟨S4x256, .f32⟩
  | .hbm, ⟨9, _⟩ => ⟨S1024, .f32⟩
  | .hbm, ⟨10, _⟩ => ⟨S1024x4x8x8x4, .f32⟩
  | .hbm, ⟨11, _⟩ => ⟨S1024x4x8x8x4, .f32⟩
  | .hbm, ⟨12, _⟩ => ⟨S1024x1024, .f32⟩
  | .hbm, ⟨13, _⟩ => ⟨S4x256, .f32⟩
  | .hbm, ⟨14, _⟩ => ⟨S128x16, .f32⟩
  | .hbm, ⟨15, _⟩ => ⟨S128x16, .f32⟩
  | .hbm, ⟨16, _⟩ => ⟨S64x16, .f32⟩
  | .hbm, ⟨17, _⟩ => ⟨S16x64, .f32⟩
  | .hbm, ⟨18, _⟩ => ⟨S16x128, .f32⟩
  | .hbm, ⟨19, _⟩ => ⟨S16x128, .f32⟩
  | .hbm, ⟨20, _⟩ => ⟨S256x4, .f32⟩
  | .hbm, ⟨21, _⟩ => ⟨S1024x1024, .f32⟩
  | .local _ .vmem, ⟨0, _⟩ => ⟨S8x1024, .f32⟩
  | .local _ .vmem, ⟨1, _⟩ => ⟨S8x1024, .f32⟩
  | .local _ .vmem, ⟨2, _⟩ => ⟨S4x256, .f32⟩
  | .local _ .vmem, ⟨3, _⟩ => ⟨S128x16, .f32⟩
  | .local _ .vmem, ⟨4, _⟩ => ⟨S128x16, .f32⟩
  | .local _ .vmem, ⟨5, _⟩ => ⟨S64x16, .f32⟩
  | .local _ .vmem, ⟨6, _⟩ => ⟨S16x64, .f32⟩
  | .local _ .vmem, ⟨7, _⟩ => ⟨S16x128, .f32⟩
  | .local _ .vmem, ⟨8, _⟩ => ⟨S16x128, .f32⟩
  | .local _ .vmem, ⟨9, _⟩ => ⟨S256x4, .f32⟩
  | .local _ .vmem, ⟨10, _⟩ => ⟨S1024, .f32⟩
  | .local _ .vmem, ⟨11, _⟩ => ⟨S8x1024, .f32⟩
  | .local _ .vmem, ⟨12, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1024x1024_S1024x4x8x8x4 : S1024x1024.ShapeCasts S1024x4x8x8x4
  transposes_S1024x4x8x8x4_S1024x4x8x8x4_0_4_3_2_1 : S1024x4x8x8x4.Transposes [0, 4, 3, 2, 1] S1024x4x8x8x4
  shapeCasts_S1024x4x8x8x4_S1024x1024 : S1024x4x8x8x4.ShapeCasts S1024x1024
  transposes_S256x4_S4x256_1_0 : S256x4.Transposes [1, 0] S4x256
  transposes_S16x128_S128x16_1_0 : S16x128.Transposes [1, 0] S128x16
  transposes_S16x64_S64x16_1_0 : S16x64.Transposes [1, 0] S64x16
  transposes_S64x16_S16x64_1_0 : S64x16.Transposes [1, 0] S16x64
  transposes_S128x16_S16x128_1_0 : S128x16.Transposes [1, 0] S16x128
  transposes_S4x256_S256x4_1_0 : S4x256.Transposes [1, 0] S256x4
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S2048x4 : S8x1024.ShapeCasts S2048x4
  inb_S4x256_S4x256_0_0 : ∀ a, (![0, 0] : Fin 2 → Nat) a + S4x256.size a ≤ S4x256.size a
  h_S4x256 : 0 < S4x256.numel
  shapeCasts_S4x256_S4x256 : S4x256.ShapeCasts S4x256
  bitsLt_bf16_f32 : FTy.bits .bf16 < FTy.bits .f32
  shapeCasts_S2048x256_S8x4096x16 : S2048x256.ShapeCasts S8x4096x16
  transposes_S8x4096x16_p0_2_1_S8x16x4096 : S8x4096x16.Transposes [0, 2, 1] S8x16x4096
  shapeCasts_S8x16x4096_S4096x128 : S8x16x4096.ShapeCasts S4096x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  shapeCasts_S4096x16_S512x128 : S4096x16.ShapeCasts S512x128
  shapeCasts_S512x16_S128x64 : S512x16.ShapeCasts S128x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  shapeCasts_S128x64_S512x16 : S128x64.ShapeCasts S512x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S512x128_S4096x16 : S512x128.ShapeCasts S4096x16
  shapeCasts_S4096x128_S8x16x256x16 : S4096x128.ShapeCasts S8x16x256x16
  transposes_S8x16x256x16_p0_2_1_3_S8x256x16x16 : S8x16x256x16.Transposes [0, 2, 1, 3] S8x256x16x16
  shapeCasts_S8x256x16x16_S2048x256 : S8x256x16x16.ShapeCasts S2048x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  shapeCasts_S2048x4_S8x1024 : S2048x4.ShapeCasts S8x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S8x1024 : S1x1024.Broadcasts S8x1024
  dot_S2048x4_S4x256_S2048x256_1_0_0_1_n_n_wf : DotDims.WF S2048x4 S4x256 S2048x256 [1] [0] [0] [1] [] []
  dot_S4096x128_S128x16_S4096x16_1_0_0_1_n_n_wf : DotDims.WF S4096x128 S128x16 S4096x16 [1] [0] [0] [1] [] []
  dot_S512x128_S128x16_S512x16_1_0_0_1_n_n_wf : DotDims.WF S512x128 S128x16 S512x16 [1] [0] [0] [1] [] []
  dot_S128x64_S64x16_S128x16_1_0_0_1_n_n_wf : DotDims.WF S128x64 S64x16 S128x16 [1] [0] [0] [1] [] []
  dot_S128x16_S16x64_S128x64_1_0_0_1_n_n_wf : DotDims.WF S128x16 S16x64 S128x64 [1] [0] [0] [1] [] []
  dot_S512x16_S16x128_S512x128_1_0_0_1_n_n_wf : DotDims.WF S512x16 S16x128 S512x128 [1] [0] [0] [1] [] []
  dot_S4096x16_S16x128_S4096x128_1_0_0_1_n_n_wf : DotDims.WF S4096x16 S16x128 S4096x128 [1] [0] [0] [1] [] []
  dot_S2048x256_S256x4_S2048x4_1_0_0_1_n_n_wf : DotDims.WF S2048x256 S256x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S1024x1024.size a
  hwx0_0 : ∀ i : grid0.Coords, EltTy.bits .f32 = 32 ∨ (Rect.block (s := S1024x1024) S8x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .f32 = 32 ∨ (Rect.block (s := S4x256) S4x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .f32 = 32 ∨ (Rect.block (s := S16x128) S16x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .f32 = 32 ∨ (Rect.block (s := S16x128) S16x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S256x4.size a
  hwx0_8 : ∀ i : grid0.Coords, EltTy.bits .f32 = 32 ∨ (Rect.block (s := S256x4) S256x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1024.size a ≤ S1024x1024.size a
  hwx0_10 : ∀ i : grid0.Coords, EltTy.bits .f32 = 32 ∨ (Rect.block (s := S1024x1024) S8x1024.size (cc0_transform_10 i) (hinb0_10 i)).WholeWords (EltTy.packing .f32)

variable [Facts₀]

def dot_S2048x4_S4x256_S2048x256_1_0_0_1_n_n : DotDims S2048x4 S4x256 S2048x256 where
  lhsContracting := [1]
  rhsContracting := [0]
  lhsNonContracting := [0]
  rhsNonContracting := [1]
  lhsBatch := []
  rhsBatch := []
  wf := dot_S2048x4_S4x256_S2048x256_1_0_0_1_n_n_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf
def dot_S128x64_S64x16_S128x16_1_0_0_1_n_n : DotDims S128x64 S64x16 S128x16 where
  lhsContracting := [1]
  rhsContracting := [0]
  lhsNonContracting := [0]
  rhsNonContracting := [1]
  lhsBatch := []
  rhsBatch := []
  wf := dot_S128x64_S64x16_S128x16_1_0_0_1_n_n_wf
def dot_S128x16_S16x64_S128x64_1_0_0_1_n_n : DotDims S128x16 S16x64 S128x64 where
  lhsContracting := [1]
  rhsContracting := [0]
  lhsNonContracting := [0]
  rhsNonContracting := [1]
  lhsBatch := []
  rhsBatch := []
  wf := dot_S128x16_S16x64_S128x64_1_0_0_1_n_n_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf

abbrev win0_0 : Pipeline.Window sig grid0 :=
  Pipeline.Window.ofSpec (Memref.whole main_v2) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S256x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S8x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S256x4 : Shape := ⟨2, ![256, 4]⟩
abbrev S16x128 : Shape := ⟨2, ![16, 128]⟩
abbrev S16x64 : Shape := ⟨2, ![16, 64]⟩
abbrev S64x16 : Shape := ⟨2, ![64, 16]⟩
abbrev S128x16 : Shape := ⟨2, ![128, 16]⟩
abbrev S4x256 : Shape := ⟨2, ![4, 256]⟩
abbrev S1024 : Shape := ⟨1, ![1024]⟩
abbrev S1024x4x8x8x4 : Shape := ⟨5, ![1024, 4, 8, 8, 4]⟩
abbrev S262144x4 : Shape := ⟨2, ![262144, 4]⟩
abbrev S262144x256 : Shape := ⟨2, ![262144, 256]⟩
abbrev S1024x4096x16 : Shape := ⟨3, ![1024, 4096, 16]⟩
abbrev S1024x16x4096 : Shape := ⟨3, ![1024, 16, 4096]⟩
abbrev S524288x128 : Shape := ⟨2, ![524288, 128]⟩
abbrev S524288x16 : Shape := ⟨2, ![524288, 16]⟩
abbrev S65536x128 : Shape := ⟨2, ![65536, 128]⟩
abbrev S65536x16 : Shape := ⟨2, ![65536, 16]⟩
abbrev S16384x64 : Shape := ⟨2, ![16384, 64]⟩
abbrev S16384x16 : Shape := ⟨2, ![16384, 16]⟩
abbrev S1024x16x256x16 : Shape := ⟨4, ![1024, 16, 256, 16]⟩
abbrev S1024x256x16x16 : Shape := ⟨4, ![1024, 256, 16, 16]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S256x4, .f32⟩
  | .hbm, ⟨2, _⟩ => ⟨S16x128, .f32⟩
  | .hbm, ⟨3, _⟩ => ⟨S16x128, .f32⟩
  | .hbm, ⟨4, _⟩ => ⟨S16x64, .f32⟩
  | .hbm, ⟨5, _⟩ => ⟨S64x16, .f32⟩
  | .hbm, ⟨6, _⟩ => ⟨S128x16, .f32⟩
  | .hbm, ⟨7, _⟩ => ⟨S128x16, .f32⟩
  | .hbm, ⟨8, _⟩ => ⟨S4x256, .f32⟩
  | .hbm, ⟨9, _⟩ => ⟨S1024, .f32⟩
  | .hbm, ⟨10, _⟩ => ⟨S1024x4x8x8x4, .f32⟩
  | .hbm, ⟨11, _⟩ => ⟨S1024x4x8x8x4, .f32⟩
  | .hbm, ⟨12, _⟩ => ⟨S262144x4, .f32⟩
  | .hbm, ⟨13, _⟩ => ⟨S4x256, .f32⟩
  | .hbm, ⟨14, _⟩ => ⟨S262144x256, .f32⟩
  | .hbm, ⟨15, _⟩ => ⟨S1024x4096x16, .f32⟩
  | .hbm, ⟨16, _⟩ => ⟨S1024x16x4096, .f32⟩
  | .hbm, ⟨17, _⟩ => ⟨S524288x128, .f32⟩
  | .hbm, ⟨18, _⟩ => ⟨S128x16, .f32⟩
  | .hbm, ⟨19, _⟩ => ⟨S524288x16, .f32⟩
  | .hbm, ⟨20, _⟩ => ⟨S65536x128, .f32⟩
  | .hbm, ⟨21, _⟩ => ⟨S128x16, .f32⟩
  | .hbm, ⟨22, _⟩ => ⟨S65536x16, .f32⟩
  | .hbm, ⟨23, _⟩ => ⟨S16384x64, .f32⟩
  | .hbm, ⟨24, _⟩ => ⟨S64x16, .f32⟩
  | .hbm, ⟨25, _⟩ => ⟨S16384x16, .f32⟩
  | .hbm, ⟨26, _⟩ => ⟨S16x64, .f32⟩
  | .hbm, ⟨27, _⟩ => ⟨S16384x64, .f32⟩
  | .hbm, ⟨28, _⟩ => ⟨S65536x16, .f32⟩
  | .hbm, ⟨29, _⟩ => ⟨S16x128, .f32⟩
  | .hbm, ⟨30, _⟩ => ⟨S65536x128, .f32⟩
  | .hbm, ⟨31, _⟩ => ⟨S524288x16, .f32⟩
  | .hbm, ⟨32, _⟩ => ⟨S16x128, .f32⟩
  | .hbm, ⟨33, _⟩ => ⟨S524288x128, .f32⟩
  | .hbm, ⟨34, _⟩ => ⟨S1024x16x256x16, .f32⟩
  | .hbm, ⟨35, _⟩ => ⟨S1024x256x16x16, .f32⟩
  | .hbm, ⟨36, _⟩ => ⟨S262144x256, .f32⟩
  | .hbm, ⟨37, _⟩ => ⟨S256x4, .f32⟩
  | .hbm, ⟨38, _⟩ => ⟨S262144x4, .f32⟩
  | .hbm, ⟨39, _⟩ => ⟨S1024x1024, .f32⟩
  | .hbm, ⟨40, _⟩ => ⟨S1x1024, .f32⟩
  | .hbm, ⟨41, _⟩ => ⟨S1024x1024, .f32⟩
  | .hbm, ⟨42, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  shapeCasts_S1024x1024_S1024x4x8x8x4 : S1024x1024.ShapeCasts S1024x4x8x8x4
  transposes_S1024x4x8x8x4_S1024x4x8x8x4_0_4_3_2_1 : S1024x4x8x8x4.Transposes [0, 4, 3, 2, 1] S1024x4x8x8x4
  shapeCasts_S1024x4x8x8x4_S262144x4 : S1024x4x8x8x4.ShapeCasts S262144x4
  transposes_S256x4_S4x256_1_0 : S256x4.Transposes [1, 0] S4x256
  shapeCasts_S262144x256_S1024x4096x16 : S262144x256.ShapeCasts S1024x4096x16
  transposes_S1024x4096x16_S1024x16x4096_0_2_1 : S1024x4096x16.Transposes [0, 2, 1] S1024x16x4096
  shapeCasts_S1024x16x4096_S524288x128 : S1024x16x4096.ShapeCasts S524288x128
  transposes_S16x128_S128x16_1_0 : S16x128.Transposes [1, 0] S128x16
  shapeCasts_S524288x16_S65536x128 : S524288x16.ShapeCasts S65536x128
  shapeCasts_S65536x16_S16384x64 : S65536x16.ShapeCasts S16384x64
  transposes_S16x64_S64x16_1_0 : S16x64.Transposes [1, 0] S64x16
  transposes_S64x16_S16x64_1_0 : S64x16.Transposes [1, 0] S16x64
  shapeCasts_S16384x64_S65536x16 : S16384x64.ShapeCasts S65536x16
  transposes_S128x16_S16x128_1_0 : S128x16.Transposes [1, 0] S16x128
  shapeCasts_S65536x128_S524288x16 : S65536x128.ShapeCasts S524288x16
  shapeCasts_S524288x128_S1024x16x256x16 : S524288x128.ShapeCasts S1024x16x256x16
  transposes_S1024x16x256x16_S1024x256x16x16_0_2_1_3 : S1024x16x256x16.Transposes [0, 2, 1, 3] S1024x256x16x16
  shapeCasts_S1024x256x16x16_S262144x256 : S1024x256x16x16.ShapeCasts S262144x256
  transposes_S4x256_S256x4_1_0 : S4x256.Transposes [1, 0] S256x4
  shapeCasts_S262144x4_S1024x1024 : S262144x4.ShapeCasts S1024x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S262144x4_S4x256_S262144x256_1_0_0_1_n_n_wf : DotDims.WF S262144x4 S4x256 S262144x256 [1] [0] [0] [1] [] []
  dot_S524288x128_S128x16_S524288x16_1_0_0_1_n_n_wf : DotDims.WF S524288x128 S128x16 S524288x16 [1] [0] [0] [1] [] []
  dot_S65536x128_S128x16_S65536x16_1_0_0_1_n_n_wf : DotDims.WF S65536x128 S128x16 S65536x16 [1] [0] [0] [1] [] []
  dot_S16384x64_S64x16_S16384x16_1_0_0_1_n_n_wf : DotDims.WF S16384x64 S64x16 S16384x16 [1] [0] [0] [1] [] []
  dot_S16384x16_S16x64_S16384x64_1_0_0_1_n_n_wf : DotDims.WF S16384x16 S16x64 S16384x64 [1] [0] [0] [1] [] []
  dot_S65536x16_S16x128_S65536x128_1_0_0_1_n_n_wf : DotDims.WF S65536x16 S16x128 S65536x128 [1] [0] [0] [1] [] []
  dot_S524288x16_S16x128_S524288x128_1_0_0_1_n_n_wf : DotDims.WF S524288x16 S16x128 S524288x128 [1] [0] [0] [1] [] []
  dot_S262144x256_S256x4_S262144x4_1_0_0_1_n_n_wf : DotDims.WF S262144x256 S256x4 S262144x4 [1] [0] [0] [1] [] []

variable [Facts₀]

def dot_S262144x4_S4x256_S262144x256_1_0_0_1_n_n : DotDims S262144x4 S4x256 S262144x256 where
  lhsContracting := [1]
  rhsContracting := [0]
  lhsNonContracting := [0]
  rhsNonContracting := [1]
  lhsBatch := []
  rhsBatch := []
  wf := dot_S262144x4_S4x256_S262144x256_1_0_0_1_n_n_wf
def dot_S524288x128_S128x16_S524288x16_1_0_0_1_n_n : DotDims S524288x128 S128x16 S524288x16 where
  lhsContracting := [1]
  rhsContracting := [0]
  lhsNonContracting := [0]
  rhsNonContracting := [1]
  lhsBatch := []
  rhsBatch := []
  wf := dot_S524288x128_S128x16_S524288x16_1_0_0_1_n_n_wf
def dot_S65536x128_S128x16_S65536x16_1_0_0_1_n_n : DotDims S65536x128 S128x16 S65536x16 where
  lhsContracting := [1]
  rhsContracting := [0]
  lhsNonContracting := [0]
  rhsNonContracting := [1]
  lhsBatch := []
  rhsBatch := []
  wf := dot_S65536x128_S128x16_S65536x16_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S65536x16_S16x128_S65536x128_1_0_0_1_n_n : DotDims S65536x16 S16x128 S65536x128 where
  lhsContracting := [1]
  rhsContracting := [0]
  lhsNonContracting := [0]
  rhsNonContracting := [1]
  lhsBatch := []
  rhsBatch := []
  wf := dot_S65536x16_S16x128_S65536x128_1_0_0_1_n_n_wf
def dot_S524288x16_S16x128_S524288x128_1_0_0_1_n_n : DotDims S524288x16 S16x128 S524288x128 where
  lhsContracting := [1]
  rhsContracting := [0]
  lhsNonContracting := [0]
  rhsNonContracting := [1]
  lhsBatch := []
  rhsBatch := []
  wf := dot_S524288x16_S16x128_S524288x128_1_0_0_1_n_n_wf
def dot_S262144x256_S256x4_S262144x4_1_0_0_1_n_n : DotDims S262144x256 S256x4 S262144x4 where
  lhsContracting := [1]
  rhsContracting := [0]
  lhsNonContracting := [0]
  rhsNonContracting := [1]
  lhsBatch := []
  rhsBatch := []
  wf := dot_S262144x256_S256x4_S262144x4_1_0_0_1_n_n_wf

class Facts : Prop extends Facts₀ where

variable [Facts]
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LibRowMajor.lean ====
/-
  Reading a vector at its ROW-MAJOR POSITION, on the extended reals.

  `flat v n` is the entry of `v` whose multi-index sits at row-major position `n` (zero past the end). A reshape keeps
  every position, so `flat` does not see it; a rows-by-columns matrix product into zeros reads, at position `p·N + q`,
  the sum over the shared axis of the left operand's row `p` (positions `p·K + k`) against the right operand's column
  `q`. Hence a product computed on a BAND OF ROWS of a taller left operand is the same band of the taller product
  (`matmul_band`): the statement a batch-tiled chain of products is compared with the untiled chain through.
-/
import Idealize.ShloMosaic.PureOps.Ideal
import Idealize.ShloMosaic.PureOps.Ideal.Laws
import Idealize.ShloMosaic.Lib.ValueIdx
import Idealize.ShloMosaic.Lib.Pipeline.Value
import proofs.«176001_j50955491999867_1_alg».proof.Proof.LibPlainDot

noncomputable section

open scoped BigOperators

namespace Cert.LibRowMajor

open Idealize.ShloMosaic Idealize.ShloMosaic.ValueIdx

/-- The entry of `v` at row-major position `n`; zero when `n` is past the last entry. -/
def flat {S : Shape} (v : S.Idx → EReal) (n : ℕ) : EReal :=
  if h : n < S.numel then v (S.rowMajor.symm ⟨n, h⟩) else 0

/-- To read `flat v n`, name the multi-index at position `n`. -/
theorem flat_at {S : Shape} (v : S.Idx → EReal) (i : S.Idx) (n : ℕ) (h : (S.rowMajor i).val = n) : flat v n = v i := by
  subst h
  unfold flat
  rw [dif_pos (S.rowMajor i).isLt]
  exact congrArg v (S.rowMajor.symm_apply_apply i)

/-- A reshape keeps every entry at its row-major position. -/
theorem flat_shapeCast {s t : Shape} (x : s.Idx → EReal) (h : s.ShapeCasts t) (n : ℕ) :
    flat (shapeCast t x h) n = flat x n := by
  have hnum : t.numel = s.numel := h
  unfold flat
  by_cases hn : n < t.numel
  · rw [dif_pos hn, dif_pos (hnum ▸ hn)]
    exact shapeCast_apply x h _ _ (by simp)
  · rw [dif_neg hn, dif_neg (hnum ▸ hn)]

/-- In a rows-by-columns array the entry `(p, q)` sits at position `p·N + q`. -/
theorem flat_ix2 {M N : ℕ} (v : (⟨2, ![M, N]⟩ : Shape).Idx → EReal) (p : Fin M) (q : Fin N) :
    flat v (p.val * N + q.val) = v (ix2 p q) :=
  flat_at v (ix2 p q) _ (by rw [Shape.rowMajor_val_two]; rfl)

/-- The same with the position split by the caller. -/
theorem flat_ix2' {M N : ℕ} (v : (⟨2, ![M, N]⟩ : Shape).Idx → EReal) (n p q : ℕ) (hp : p < M) (hq : q < N)
    (hn : n = p * N + q) : flat v n = v (ix2 ⟨p, hp⟩ ⟨q, hq⟩) := by
  subst hn; exact flat_ix2 v ⟨p, hp⟩ ⟨q, hq⟩

/-! ## The plain product's dimension numbers -/

theorem plain_rank (M K N : ℕ) : (DotDims.plain M K N).contr.rank = 1 := rfl
theorem plain_size (M K N : ℕ) : (DotDims.plain M K N).contr.size ⟨0, by rw [plain_rank]; exact Nat.one_pos⟩ = K := rfl

/-- The contraction sum of the plain `M×K` by `K×N` dimension numbers at entry `(p, j)`. -/
theorem plain_sum (M K N : ℕ) (l : (⟨2, ![M, K]⟩ : Shape).Idx → EReal) (r : (⟨2, ![K, N]⟩ : Shape).Idx → EReal)
    (p : Fin M) (j : Fin N) :
    ∑ q : (DotDims.plain M K N).contr.Idx, l ((DotDims.plain M K N).lhsIdx (ix2 p j) q) * r ((DotDims.plain M K N).rhsIdx (ix2 p j) q)
      = ∑ k : Fin K, l (ix2 p k) * r (ix2 k j) :=
  Cert.LibPlainDot.sum_plain (DotDims.plain M K N) rfl rfl (fun _ _ => rfl) (fun _ _ => rfl) (fun _ _ => rfl)
    (fun _ _ => rfl) l r p j

/-! ## A plain product at a row-major position -/

/-- A plain `M×K` by `K×N` product into zeros, read at position `p·N + q`: row `p` of the left operand, taken by
    positions, against column `q` of the right. -/
theorem flat_matmul {M K N : ℕ} {φ₁ φ₂ : FTy} (prec : Option ContractPrecision)
    (l : FVec Ideal ⟨2, ![M, K]⟩ φ₁) (r : FVec Ideal ⟨2, ![K, N]⟩ φ₂) (p : Fin M) (q : Fin N) :
    flat (FloatOps.matmul (DotDims.plain M K N) prec l r (constant (F := Ideal) ⟨2, ![M, N]⟩ .f32 0x00000000#32))
        (p.val * N + q.val)
      = ∑ k : Fin K, flat l (p.val * K + k.val) * r (ix2 k q) := by
  rw [flat_ix2, Ideal.matmul_constant_zero_apply, plain_sum]
  exact Finset.sum_congr rfl fun k _ => by rw [flat_ix2]

/-- The host's plain `dot_general`, read the same way. -/
theorem flat_dotGeneral {M K N : ℕ} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    flat (FloatOps.dotGeneral (DotDims.plain M K N) prec sched l r) (p.val * N + q.val)
      = ∑ k : Fin K, flat l (p.val * K + k.val) * r (ix2 k q) := by
  rw [flat_ix2, Ideal.dotGeneral_apply, plain_sum]
  exact Finset.sum_congr rfl fun k _ => by rw [flat_ix2]

/-- A BAND OF ROWS. If the `M` rows of `lK` are the rows `off … off + M - 1` of the taller `lR` (said by positions:
    `lK` at `o` is `lR` at `off·K + o`) and the right operands agree, then the product of `lK` is the same band of the
    product of `lR`: each entry of a product depends on one row of the left operand only. -/
theorem matmul_band {M M' K N : ℕ} {φ₁ φ₂ φ₁' φ₂' : FTy} (prec prec' : Option ContractPrecision) (sched : HostSchedule)
    (lK : FVec Ideal ⟨2, ![M, K]⟩ φ₁) (lR : FVec Ideal ⟨2, ![M', K]⟩ φ₁')
    (r : FVec Ideal ⟨2, ![K, N]⟩ φ₂) (r' : FVec Ideal ⟨2, ![K, N]⟩ φ₂') (hr : ∀ i, r i = r' i)
    (off : ℕ) (hoff : off + M ≤ M')
    (h : ∀ o, o < M * K → flat lK o = flat lR (off * K + o)) (o : ℕ) (ho : o < M * N) :
    flat (FloatOps.matmul (DotDims.plain M K N) prec lK r (constant (F := Ideal) ⟨2, ![M, N]⟩ .f32 0x00000000#32)) o
      = flat (FloatOps.dotGeneral (DotDims.plain M' K N) prec' sched lR r') (off * N + o) := by
  have hN : 0 < N := Nat.pos_of_ne_zero (by rintro rfl; simp at ho)
  have hp : o / N < M := Nat.div_lt_of_lt_mul (by rw [Nat.mul_comm]; exact ho)
  have hq : o % N < N := Nat.mod_lt _ hN
  have ho' : o = o / N * N + o % N := (Nat.div_add_mod' o N).symm
  have hpo : off + o / N < M' := by omega
  have e2 : off * N + o = (off + o / N) * N + o % N := by rw [Nat.add_mul]; omega
  refine (congrArg (flat _) ho').trans ((flat_matmul prec lK r ⟨o / N, hp⟩ ⟨o % N, hq⟩).trans ?_)
  refine Eq.symm ((congrArg (flat _) e2).trans ((flat_dotGeneral prec' sched lR r' ⟨off + o / N, hpo⟩ ⟨o % N, hq⟩).trans ?_))
  refine Finset.sum_congr rfl fun k _ => ?_
  have hk : o / N * K + k.val < M * K := by
    calc o / N * K + k.val < o / N * K + K := by have := k.isLt; omega
      _ = (o / N + 1) * K := by ring
      _ ≤ M * K := Nat.mul_le_mul_right K hp
  show flat lR ((off + o / N) * K + k.val) * r' (ix2 k ⟨o % N, hq⟩) = flat lK (o / N * K + k.val) * r (ix2 k ⟨o % N, hq⟩)
  rw [hr, h _ hk]
  congr 2
  ring

/-! ## Bands: one array as a stretch of a longer one -/

/-- `a` is the `t`-th stretch of length `n` of `A`, by row-major positions: `a` at `o` is `A` at `n·t + o`. -/
def Band {S S' : Shape} (n t : ℕ) (a : S.Idx → EReal) (A : S'.Idx → EReal) : Prop :=
  ∀ o, o < n → flat a o = flat A (n * t + o)

/-- Reshaping either side keeps a band: a reshape moves no entry from its position. -/
theorem Band.cast {S S' T T' : Shape} {n t : ℕ} {a : S.Idx → EReal} {A : S'.Idx → EReal} (h : Band n t a A)
    (hc : S.ShapeCasts T) (hC : S'.ShapeCasts T') : Band n t (shapeCast T a hc) (shapeCast T' A hC) := by
  intro o ho
  rw [flat_shapeCast, flat_shapeCast]
  exact h o ho

/-- Reshaping the short side only. -/
theorem Band.castLeft {S S' T : Shape} {n t : ℕ} {a : S.Idx → EReal} {A : S'.Idx → EReal} (h : Band n t a A)
    (hc : S.ShapeCasts T) : Band n t (shapeCast T a hc) A := by
  intro o ho
  rw [flat_shapeCast]
  exact h o ho

/-- Reshaping the long side only. -/
theorem Band.castRight {S S' T' : Shape} {n t : ℕ} {a : S.Idx → EReal} {A : S'.Idx → EReal} (h : Band n t a A)
    (hC : S'.ShapeCasts T') : Band n t a (shapeCast T' A hC) := by
  intro o ho
  rw [flat_shapeCast]
  exact h o ho

/-- THE PRODUCT OF A BAND IS A BAND OF THE PRODUCT. The left operand `lK` (`M` rows) is the `t`-th band of `lR` (`G·M`
    rows), the right operands agree: then the `M×N` product is the `t`-th band of the `G·M × N` product. -/
theorem Band.matmul {M K N G t : ℕ} (ht : t < G) {φ₁ φ₂ φ₁' φ₂' : FTy} (prec prec' : Option ContractPrecision)
    (sched : HostSchedule) {lK : FVec Ideal ⟨2, ![M, K]⟩ φ₁} {lR : FVec Ideal ⟨2, ![G * M, K]⟩ φ₁'}
    {r : FVec Ideal ⟨2, ![K, N]⟩ φ₂} {r' : FVec Ideal ⟨2, ![K, N]⟩ φ₂'} (hr : ∀ i, r i = r' i)
    (h : Band (M * K) t lK lR) :
    Band (M * N) t (FloatOps.matmul (DotDims.plain M K N) prec lK r (constant (F := Ideal) ⟨2, ![M, N]⟩ .f32 0x00000000#32))
      (FloatOps.dotGeneral (DotDims.plain (G * M) K N) prec' sched lR r') := by
  intro o ho
  have hoff : M * t + M ≤ G * M := by
    calc M * t + M = M * (t + 1) := by ring
      _ ≤ M * G := Nat.mul_le_mul_left M ht
      _ = G * M := Nat.mul_comm M G
  have h' : ∀ o, o < M * K → flat lK o = flat lR (M * t * K + o) := fun o ho =>
    (h o ho).trans (congrArg (flat lR) (by ring))
  refine (matmul_band prec prec' sched lK lR r r' hr (M * t) hoff h' o ho).trans (congrArg (flat _) ?_)
  ring

end Cert.LibRowMajor

end
-- ==== Proof.Chain.lean ====
/-
  THE TENSOR-RING CHAIN ON ONE TILE OF EIGHT BATCH ROWS.

  Both programs send every batch row through the same eight contractions, with reshapes and two transposes between
  them that never move an entry from one batch row to another. So the chain run on rows `8t … 8t+7` alone gives rows
  `8t … 8t+7` of the chain run on all 1024 rows: stage by stage, the tile's array is the `t`-th band of the whole array.
-/
import proofs.«176001_j50955491999867_1_alg».proof.Proof.Gen.KernelIdeal.Skeleton
import proofs.«176001_j50955491999867_1_alg».proof.Proof.Gen.ReferenceIdeal.Read
import proofs.«176001_j50955491999867_1_alg».proof.Proof.LibRowMajor

noncomputable section

namespace Cert.TensorRing

open Idealize.ShloMosaic Idealize.ShloMosaic.ValueIdx Cert.LibRowMajor
open Cert.KernelIdeal Cert.KernelIdeal.Gen
open Cert.ReferenceIdeal.Read (val_main_v2 val_main_v3 val_main_v8 val_main_v11 val_main_v14 val_main_v16 val_main_v19
  val_main_v22 val_main_v27 val_main_v32)

/-- A change of float format is the identity on the extended reals, so it keeps a band. -/
theorem Band.truncLeft {S S' : Shape} {n t : ℕ} {φ ψ : FTy} {a : FVec Ideal S φ} {A : S'.Idx → EReal}
    (hb : ψ.bits < φ.bits) (h : Band n t (a : S.Idx → EReal) A) : Band n t (truncf ψ a hb : S.Idx → EReal) A := h

/-- THE FIRST TRANSPOSE. Eight rows' `[4096, 16]` slabs, each transposed to `[16, 4096]`, are the `t`-th band of the
    1024 rows' slabs transposed the same way: the swap happens inside a batch row's 65536 entries. -/
theorem band_swap3 (t : ℕ) (ht : t < 128)
    (a : (⟨3, ![8, 4096, 16]⟩ : Shape).Idx → EReal) (A : (⟨3, ![1024, 4096, 16]⟩ : Shape).Idx → EReal)
    (hK : (⟨3, ![8, 4096, 16]⟩ : Shape).Transposes [0, 2, 1] ⟨3, ![8, 16, 4096]⟩)
    (hR : (⟨3, ![1024, 4096, 16]⟩ : Shape).Transposes [0, 2, 1] ⟨3, ![1024, 16, 4096]⟩)
    (h : Band 524288 t a A) :
    Band 524288 t (transpose ⟨3, ![8, 16, 4096]⟩ [0, 2, 1] a hK) (transpose ⟨3, ![1024, 16, 4096]⟩ [0, 2, 1] A hR) := by
  intro o ho
  -- position o of the transposed tile is entry (r, i, j): o = (r·16 + i)·4096 + j
  have hr : o / 65536 < 8 := by omega
  have hi : o / 4096 % 16 < 16 := by omega
  have hj : o % 4096 < 4096 := by omega
  have hR' : 8 * t + o / 65536 < 1024 := by omega
  have eL : flat (transpose ⟨3, ![8, 16, 4096]⟩ [0, 2, 1] a hK) o
      = a (ix3 ⟨o / 65536, hr⟩ ⟨o % 4096, hj⟩ ⟨o / 4096 % 16, hi⟩) :=
    (flat_at _ (ix3 ⟨o / 65536, hr⟩ ⟨o / 4096 % 16, hi⟩ ⟨o % 4096, hj⟩) o (by
      rw [Shape.rowMajor_val_three]; show (o / 65536 * 16 + o / 4096 % 16) * 4096 + o % 4096 = o; omega)).trans
    (transpose_apply _ a hK _ _ (fun b => match b with | ⟨0, _⟩ => rfl | ⟨1, _⟩ => rfl | ⟨2, _⟩ => rfl))
  have eR : flat (transpose ⟨3, ![1024, 16, 4096]⟩ [0, 2, 1] A hR) (524288 * t + o)
      = A (ix3 ⟨8 * t + o / 65536, hR'⟩ ⟨o % 4096, hj⟩ ⟨o / 4096 % 16, hi⟩) :=
    (flat_at _ (ix3 ⟨8 * t + o / 65536, hR'⟩ ⟨o / 4096 % 16, hi⟩ ⟨o % 4096, hj⟩) _ (by
      rw [Shape.rowMajor_val_three]
      show ((8 * t + o / 65536) * 16 + o / 4096 % 16) * 4096 + o % 4096 = 524288 * t + o; omega)).trans
    (transpose_apply _ A hR _ _ (fun b => match b with | ⟨0, _⟩ => rfl | ⟨1, _⟩ => rfl | ⟨2, _⟩ => rfl))
  have e3 : a (ix3 ⟨o / 65536, hr⟩ ⟨o % 4096, hj⟩ ⟨o / 4096 % 16, hi⟩)
      = flat a ((o / 65536 * 4096 + o % 4096) * 16 + o / 4096 % 16) :=
    (flat_at a _ _ (by rw [Shape.rowMajor_val_three]; rfl)).symm
  have e4 : A (ix3 ⟨8 * t + o / 65536, hR'⟩ ⟨o % 4096, hj⟩ ⟨o / 4096 % 16, hi⟩)
      = flat A (524288 * t + ((o / 65536 * 4096 + o % 4096) * 16 + o / 4096 % 16)) :=
    (flat_at A _ _ (by
      rw [Shape.rowMajor_val_three]
      show ((8 * t + o / 65536) * 4096 + o % 4096) * 16 + o / 4096 % 16 = _; omega)).symm
  rw [eL, eR, e3, e4]
  exact h _ (by omega)

/-- THE SECOND TRANSPOSE. Eight rows' `[16, 256, 16]` slabs with the first two axes swapped are the `t`-th band of the
    1024 rows' slabs swapped the same way. -/
theorem band_swap4 (t : ℕ) (ht : t < 128)
    (a : (⟨4, ![8, 16, 256, 16]⟩ : Shape).Idx → EReal) (A : (⟨4, ![1024, 16, 256, 16]⟩ : Shape).Idx → EReal)
    (hK : (⟨4, ![8, 16, 256, 16]⟩ : Shape).Transposes [0, 2, 1, 3] ⟨4, ![8, 256, 16, 16]⟩)
    (hR : (⟨4, ![1024, 16, 256, 16]⟩ : Shape).Transposes [0, 2, 1, 3] ⟨4, ![1024, 256, 16, 16]⟩)
    (h : Band 524288 t a A) :
    Band 524288 t (transpose ⟨4, ![8, 256, 16, 16]⟩ [0, 2, 1, 3] a hK)
      (transpose ⟨4, ![1024, 256, 16, 16]⟩ [0, 2, 1, 3] A hR) := by
  intro o ho
  -- position o of the transposed tile is entry (r, c, e, d): o = ((r·256 + c)·16 + e)·16 + d
  have hr : o / 65536 < 8 := by omega
  have hc : o / 256 % 256 < 256 := by omega
  have he : o / 16 % 16 < 16 := by omega
  have hd : o % 16 < 16 := by omega
  have hR' : 8 * t + o / 65536 < 1024 := by omega
  have eL : flat (transpose ⟨4, ![8, 256, 16, 16]⟩ [0, 2, 1, 3] a hK) o
      = a (ix4 ⟨o / 65536, hr⟩ ⟨o / 16 % 16, he⟩ ⟨o / 256 % 256, hc⟩ ⟨o % 16, hd⟩) :=
    (flat_at _ (ix4 ⟨o / 65536, hr⟩ ⟨o / 256 % 256, hc⟩ ⟨o / 16 % 16, he⟩ ⟨o % 16, hd⟩) o (by
      rw [Shape.rowMajor_val_four]
      show ((o / 65536 * 256 + o / 256 % 256) * 16 + o / 16 % 16) * 16 + o % 16 = o; omega)).trans
    (transpose_apply _ a hK _ _ (fun b => match b with | ⟨0, _⟩ => rfl | ⟨1, _⟩ => rfl | ⟨2, _⟩ => rfl | ⟨3, _⟩ => rfl))
  have eR : flat (transpose ⟨4, ![1024, 256, 16, 16]⟩ [0, 2, 1, 3] A hR) (524288 * t + o)
      = A (ix4 ⟨8 * t + o / 65536, hR'⟩ ⟨o / 16 % 16, he⟩ ⟨o / 256 % 256, hc⟩ ⟨o % 16, hd⟩) :=
    (flat_at _ (ix4 ⟨8 * t + o / 65536, hR'⟩ ⟨o / 256 % 256, hc⟩ ⟨o / 16 % 16, he⟩ ⟨o % 16, hd⟩) _ (by
      rw [Shape.rowMajor_val_four]
      show (((8 * t + o / 65536) * 256 + o / 256 % 256) * 16 + o / 16 % 16) * 16 + o % 16 = 524288 * t + o; omega)).trans
    (transpose_apply _ A hR _ _ (fun b => match b with | ⟨0, _⟩ => rfl | ⟨1, _⟩ => rfl | ⟨2, _⟩ => rfl | ⟨3, _⟩ => rfl))
  have e3 : a (ix4 ⟨o / 65536, hr⟩ ⟨o / 16 % 16, he⟩ ⟨o / 256 % 256, hc⟩ ⟨o % 16, hd⟩)
      = flat a (((o / 65536 * 16 + o / 16 % 16) * 256 + o / 256 % 256) * 16 + o % 16) :=
    (flat_at a _ _ (by rw [Shape.rowMajor_val_four]; rfl)).symm
  have e4 : A (ix4 ⟨8 * t + o / 65536, hR'⟩ ⟨o / 16 % 16, he⟩ ⟨o / 256 % 256, hc⟩ ⟨o % 16, hd⟩)
      = flat A (524288 * t + (((o / 65536 * 16 + o / 16 % 16) * 256 + o / 256 % 256) * 16 + o % 16)) :=
    (flat_at A _ _ (by
      rw [Shape.rowMajor_val_four]
      show (((8 * t + o / 65536) * 16 + o / 16 % 16) * 256 + o / 256 % 256) * 16 + o % 16 = _; omega)).symm
  rw [eL, eR, e3, e4]
  exact h _ (by omega)

/-- THE LAST STEP. The tile's last product, reshaped to eight rows of 1024 and shifted by the bias, is rows
    `8t … 8t+7` of the reference's last product reshaped to 1024 rows and shifted by the same bias. -/
theorem final_entry (t : ℕ) (ht : t < 128) (k : FVec Ideal S2048x4 .f32) (b : Vec Ideal S1024 .f32)
    (A : (⟨Cert.ReferenceIdeal.S262144x4, .f32⟩ : BufTy).Contents (Elt Ideal))
    (bias : (⟨Cert.ReferenceIdeal.S1024, .f32⟩ : BufTy).Contents (Elt Ideal))
    (hb : ∀ i, b i = bias i) (h : Band 8192 t (k : S2048x4.Idx → EReal) A) (p : Fin 8) (q : Fin 1024) :
    addf (shapeCast S8x1024 k shapeCasts_S2048x4_S8x1024)
        (broadcastTo S8x1024 (shapeCast S1x1024 b shapeCasts_S1024_S1x1024) broadcasts_S1x1024_S8x1024) (ix2 p q)
      = addf (shapeCast Cert.ReferenceIdeal.S1024x1024 A Cert.ReferenceIdeal.Facts₀.shapeCasts_S262144x4_S1024x1024)
          (Cert.ReferenceIdeal.Read.val_main_v31 (F := Ideal) bias)
          (ix2 (⟨8 * t + p.val, by have := p.isLt; omega⟩ : Fin 1024) q) := by
  have hP : 8 * t + p.val < 1024 := by have := p.isLt; omega
  show FloatOps.addf _ _ = FloatOps.addf _ _
  congr 1
  · -- the product's entry: the same row-major position on both sides
    have e1 : shapeCast S8x1024 k shapeCasts_S2048x4_S8x1024 (ix2 p q) = flat (k : S2048x4.Idx → EReal) (p.val * 1024 + q.val) := by
      rw [← flat_ix2 (shapeCast S8x1024 k shapeCasts_S2048x4_S8x1024) p q, flat_shapeCast]
    have e2 : shapeCast Cert.ReferenceIdeal.S1024x1024 A Cert.ReferenceIdeal.Facts₀.shapeCasts_S262144x4_S1024x1024
          (ix2 (⟨8 * t + p.val, hP⟩ : Fin 1024) q) = flat A (8192 * t + (p.val * 1024 + q.val)) := by
      rw [← flat_ix2 (shapeCast Cert.ReferenceIdeal.S1024x1024 A _) ⟨8 * t + p.val, hP⟩ q, flat_shapeCast]
      congr 1
      show (8 * t + p.val) * 1024 + q.val = _
      omega
    rw [e1, e2]
    exact h _ (by have := p.isLt; have := q.isLt; omega)
  · -- the bias: entry `q` of the vector on both sides
    rw [Cert.LibPlainDot.bias_row_apply, Cert.ReferenceIdeal.Read.val_main_v31_apply,
      Cert.ReferenceIdeal.Read.val_main_v30_apply, hb]
    exact congrArg bias (funext fun a => match a with | ⟨0, _⟩ => rfl)

/-- One tile. `xb` holds eight rows of the permuted input — the `t`-th band of the reference's permuted input, read
    by row-major positions —, `u0 … u7` are the transposed weights both programs multiply by, `b` the bias. Then
    what the kernel body computes from them is, entry by entry, rows `8t … 8t+7` of the reference's result. -/
theorem payload_band (t : ℕ) (ht : t < 128)
    (xb : Vec Ideal S8x1024 .f32) (u0 : Vec Ideal S4x256 .f32) (u1 u2 : Vec Ideal S128x16 .f32)
    (u3 : Vec Ideal S64x16 .f32) (u4 : Vec Ideal S16x64 .f32) (u5 u6 : Vec Ideal S16x128 .f32)
    (u7 : Vec Ideal S256x4 .f32) (b : Vec Ideal S1024 .f32)
    (x : (⟨Cert.ReferenceIdeal.S1024x1024, .f32⟩ : BufTy).Contents (Elt Ideal))
    (w0 : (⟨Cert.ReferenceIdeal.S256x4, .f32⟩ : BufTy).Contents (Elt Ideal))
    (w1 w2 : (⟨Cert.ReferenceIdeal.S16x128, .f32⟩ : BufTy).Contents (Elt Ideal))
    (w3 : (⟨Cert.ReferenceIdeal.S16x64, .f32⟩ : BufTy).Contents (Elt Ideal))
    (w4 : (⟨Cert.ReferenceIdeal.S64x16, .f32⟩ : BufTy).Contents (Elt Ideal))
    (w5 w6 : (⟨Cert.ReferenceIdeal.S128x16, .f32⟩ : BufTy).Contents (Elt Ideal))
    (w7 : (⟨Cert.ReferenceIdeal.S4x256, .f32⟩ : BufTy).Contents (Elt Ideal))
    (bias : (⟨Cert.ReferenceIdeal.S1024, .f32⟩ : BufTy).Contents (Elt Ideal))
    (hx : Band 8192 t xb (val_main_v2 (F := Ideal) x))
    (h0 : ∀ i, u0 i = val_main_v3 (F := Ideal) w0 i) (h1 : ∀ i, u1 i = val_main_v8 (F := Ideal) w1 i)
    (h2 : ∀ i, u2 i = val_main_v11 (F := Ideal) w2 i) (h3 : ∀ i, u3 i = val_main_v14 (F := Ideal) w3 i)
    (h4 : ∀ i, u4 i = val_main_v16 (F := Ideal) w4 i) (h5 : ∀ i, u5 i = val_main_v19 (F := Ideal) w5 i)
    (h6 : ∀ i, u6 i = val_main_v22 (F := Ideal) w6 i) (h7 : ∀ i, u7 i = val_main_v27 (F := Ideal) w7 i)
    (hb : ∀ i, b i = bias i)
    (p : Fin 8) (q : Fin 1024) :
    k0_pay1 (F := Ideal) (k0_pay2 (F := Ideal) xb u0 u1 u2 u3 u4 u5) u6 u7 b (ix2 p q)
      = val_main_v32 (F := Ideal) x w0 w1 w2 w3 w4 w5 w6 w7 bias
          (ix2 (⟨8 * t + p.val, by have := p.isLt; omega⟩ : Fin 1024) q) := by
  -- the right operands: each loaded weight, re-cast to its own shape and re-formatted, is the reference's
  have r0 : ∀ i, truncf (F := Ideal) .bf16 (shapeCast S4x256 u0 shapeCasts_S4x256_S4x256 : FVec Ideal S4x256 .f32) bitsLt_bf16_f32 i = val_main_v3 (F := Ideal) w0 i :=
    fun i => (congrFun (shapeCast_self u0 _) i).trans (h0 i)
  have r1 : ∀ i, truncf (F := Ideal) .bf16 (shapeCast S128x16 u1 shapeCasts_S128x16_S128x16 : FVec Ideal S128x16 .f32) bitsLt_bf16_f32 i = val_main_v8 (F := Ideal) w1 i :=
    fun i => (congrFun (shapeCast_self u1 _) i).trans (h1 i)
  have r2 : ∀ i, truncf (F := Ideal) .bf16 (shapeCast S128x16 u2 shapeCasts_S128x16_S128x16 : FVec Ideal S128x16 .f32) bitsLt_bf16_f32 i = val_main_v11 (F := Ideal) w2 i :=
    fun i => (congrFun (shapeCast_self u2 _) i).trans (h2 i)
  have r3 : ∀ i, truncf (F := Ideal) .bf16 (shapeCast S64x16 u3 shapeCasts_S64x16_S64x16 : FVec Ideal S64x16 .f32) bitsLt_bf16_f32 i = val_main_v14 (F := Ideal) w3 i :=
    fun i => (congrFun (shapeCast_self u3 _) i).trans (h3 i)
  have r4 : ∀ i, truncf (F := Ideal) .bf16 (shapeCast S16x64 u4 shapeCasts_S16x64_S16x64 : FVec Ideal S16x64 .f32) bitsLt_bf16_f32 i = val_main_v16 (F := Ideal) w4 i :=
    fun i => (congrFun (shapeCast_self u4 _) i).trans (h4 i)
  have r5 : ∀ i, truncf (F := Ideal) .bf16 (shapeCast S16x128 u5 shapeCasts_S16x128_S16x128 : FVec Ideal S16x128 .f32) bitsLt_bf16_f32 i = val_main_v19 (F := Ideal) w5 i :=
    fun i => (congrFun (shapeCast_self u5 _) i).trans (h5 i)
  have r6 : ∀ i, truncf (F := Ideal) .bf16 (shapeCast S16x128 u6 shapeCasts_S16x128_S16x128 : FVec Ideal S16x128 .f32) bitsLt_bf16_f32 i = val_main_v22 (F := Ideal) w6 i :=
    fun i => (congrFun (shapeCast_self u6 _) i).trans (h6 i)
  have r7 : ∀ i, truncf (F := Ideal) .bf16 (shapeCast S256x4 u7 shapeCasts_S256x4_S256x4 : FVec Ideal S256x4 .f32) bitsLt_bf16_f32 i = val_main_v27 (F := Ideal) w7 i :=
    fun i => (congrFun (shapeCast_self u7 _) i).trans (h7 i)
  unfold k0_pay1 k0_pay2
  unfold Cert.ReferenceIdeal.Read.val_main_v32 Cert.ReferenceIdeal.Read.val_main_v29 Cert.ReferenceIdeal.Read.val_main_v28
    Cert.ReferenceIdeal.Read.val_main_v26 Cert.ReferenceIdeal.Read.val_main_v25 Cert.ReferenceIdeal.Read.val_main_v24
    Cert.ReferenceIdeal.Read.val_main_v23 Cert.ReferenceIdeal.Read.val_main_v21 Cert.ReferenceIdeal.Read.val_main_v20
    Cert.ReferenceIdeal.Read.val_main_v18 Cert.ReferenceIdeal.Read.val_main_v17 Cert.ReferenceIdeal.Read.val_main_v15
    Cert.ReferenceIdeal.Read.val_main_v13 Cert.ReferenceIdeal.Read.val_main_v12 Cert.ReferenceIdeal.Read.val_main_v10
    Cert.ReferenceIdeal.Read.val_main_v9 Cert.ReferenceIdeal.Read.val_main_v7 Cert.ReferenceIdeal.Read.val_main_v6
    Cert.ReferenceIdeal.Read.val_main_v5 Cert.ReferenceIdeal.Read.val_main_v4
  dsimp only
  -- the bias and the last reshape
  refine final_entry t ht _ b _ bias hb ?_ p q
  -- node 7, after the second transpose
  refine Band.matmul (M := 2048) (K := 256) (N := 4) (G := 128) ht none none .single r7 (Band.truncLeft _ ?_)
  refine Band.cast ?_ _ _
  refine band_swap4 t ht _ _ _ _ ?_
  refine Band.cast ?_ _ _
  -- nodes 6, 5, 4, 3, 2, 1: a product, then a reshape
  refine Band.matmul (M := 4096) (K := 16) (N := 128) (G := 128) ht none none .single r6 (Band.truncLeft _ ?_)
  refine Band.cast ?_ _ _
  refine Band.matmul (M := 512) (K := 16) (N := 128) (G := 128) ht none none .single r5 (Band.truncLeft _ ?_)
  refine Band.cast ?_ _ _
  refine Band.matmul (M := 128) (K := 16) (N := 64) (G := 128) ht none none .single r4 (Band.truncLeft _ ?_)
  refine Band.matmul (M := 128) (K := 64) (N := 16) (G := 128) ht none none .single r3 (Band.truncLeft _ ?_)
  refine Band.cast ?_ _ _
  refine Band.matmul (M := 512) (K := 128) (N := 16) (G := 128) ht none none .single r2 (Band.truncLeft _ ?_)
  refine Band.cast ?_ _ _
  refine Band.matmul (M := 4096) (K := 128) (N := 16) (G := 128) ht none none .single r1 (Band.truncLeft _ ?_)
  refine Band.cast ?_ _ _
  -- the first transpose, after node 0
  refine band_swap3 t ht _ _ _ _ ?_
  refine Band.cast ?_ _ _
  refine Band.matmul (M := 2048) (K := 4) (N := 256) (G := 128) ht none none .single r0 (Band.truncLeft _ ?_)
  -- the tile of the permuted input, reshaped twice
  exact (hx.castLeft _).castLeft _

end Cert.TensorRing

end
-- ==== Proof.Blocks.lean ====
/-
  FROM TILES TO THE WHOLE RESULT.

  The kernel runs over 128 grid points. Point `t` reads rows `8t … 8t+7` of the permuted input — the argument
  reshaped to [1024,4,8,8,4], its four inner axes reversed, reshaped back to [1024,1024] —, reads the eight transposed
  weights and the bias whole, and writes rows `8t … 8t+7` of the result. The reference reshapes the same permuted array
  to [262144,4]; a reshape moves no entry from its row-major position, so the eight rows point `t` reads are the
  `t`-th band of 8192 positions of the reference's permuted input. By the chain on one tile (`payload_band`) point
  `t` therefore writes block `t` of the reference's result; the 128 blocks cover the array (row `r` lies in the block
  of point `r / 8`), so the result array ends holding the reference's result of the ten arguments.
-/
import proofs.«176001_j50955491999867_1_alg».proof.Proof.Gen.KernelIdeal.Value
import proofs.«176001_j50955491999867_1_alg».proof.Proof.Gen.ReferenceIdeal.Read
import proofs.«176001_j50955491999867_1_alg».proof.Proof.Chain

noncomputable section

namespace Cert.TensorRing

open Idealize.ShloMosaic Idealize.ShloMosaic.TcCoe Idealize.ShloMosaic.ValueIdx Idealize.SL.Sem Cert.LibRowMajor
open Idealize.ShloMosaic.Pipeline (Dat)
open Cert.KernelIdeal Cert.KernelIdeal.Gen
open Cert.ReferenceIdeal.Read (val_main_v2 val_main_v3 val_main_v8 val_main_v11 val_main_v14 val_main_v16 val_main_v19
  val_main_v22 val_main_v27 val_main_v32)

variable (m : (ℓ : Loc nD τ sig) → Buf (Elt Ideal) ℓ) (ρ : Dev nD → PrngReg)

/-! ## The region's entry: the host prefix read back -/

/-- The first window's array at region entry: the argument reshaped to [1024,4,8,8,4], its four inner axes reversed,
    reshaped back to [1024,1024]. -/
theorem entry_x (c : Dev nD) :
    (V m c main_v2 : S1024x1024.Idx → EReal)
      = shapeCast S1024x1024 (transpose S1024x4x8x8x4 [0, 4, 3, 2, 1]
          (shapeCast S1024x4x8x8x4 (m ((c : Thread nD τ).loc main_arg0)) shapeCasts_S1024x1024_S1024x4x8x8x4)
          transposes_S1024x4x8x8x4_S1024x4x8x8x4_0_4_3_2_1) shapeCasts_S1024x4x8x8x4_S1024x1024 := by
  dsimp only [Gen.V, Gen.hostOps0]; after_results; try rfl

/-- Each weight window's array at region entry is its argument transposed: the reference's transposed weight. -/
theorem entry_u0 (c : Dev nD) :
    (V m c main_v3 : S4x256.Idx → EReal) = val_main_v3 (F := Ideal) (m ((c : Thread nD τ).loc main_arg1)) := by
  have e : (V m c main_v3 : S4x256.Idx → EReal)
      = transpose S4x256 [1, 0] (m ((c : Thread nD τ).loc main_arg1)) transposes_S256x4_S4x256_1_0 := by
    dsimp only [Gen.V, Gen.hostOps0]; after_results; try rfl
  rw [e]; rfl

theorem entry_u1 (c : Dev nD) :
    (V m c main_v4 : S128x16.Idx → EReal) = val_main_v8 (F := Ideal) (m ((c : Thread nD τ).loc main_arg2)) := by
  have e : (V m c main_v4 : S128x16.Idx → EReal)
      = transpose S128x16 [1, 0] (m ((c : Thread nD τ).loc main_arg2)) transposes_S16x128_S128x16_1_0 := by
    dsimp only [Gen.V, Gen.hostOps0]; after_results; try rfl
  rw [e]; rfl

theorem entry_u2 (c : Dev nD) :
    (V m c main_v5 : S128x16.Idx → EReal) = val_main_v11 (F := Ideal) (m ((c : Thread nD τ).loc main_arg3)) := by
  have e : (V m c main_v5 : S128x16.Idx → EReal)
      = transpose S128x16 [1, 0] (m ((c : Thread nD τ).loc main_arg3)) transposes_S16x128_S128x16_1_0 := by
    dsimp only [Gen.V, Gen.hostOps0]; after_results; try rfl
  rw [e]; rfl

theorem entry_u3 (c : Dev nD) :
    (V m c main_v6 : S64x16.Idx → EReal) = val_main_v14 (F := Ideal) (m ((c : Thread nD τ).loc main_arg4)) := by
  have e : (V m c main_v6 : S64x16.Idx → EReal)
      = transpose S64x16 [1, 0] (m ((c : Thread nD τ).loc main_arg4)) transposes_S16x64_S64x16_1_0 := by
    dsimp only [Gen.V, Gen.hostOps0]; after_results; try rfl
  rw [e]; rfl

theorem entry_u4 (c : Dev nD) :
    (V m c main_v7 : S16x64.Idx → EReal) = val_main_v16 (F := Ideal) (m ((c : Thread nD τ).loc main_arg5)) := by
  have e : (V m c main_v7 : S16x64.Idx → EReal)
      = transpose S16x64 [1, 0] (m ((c : Thread nD τ).loc main_arg5)) transposes_S64x16_S16x64_1_0 := by
    dsimp only [Gen.V, Gen.hostOps0]; after_results; try rfl
  rw [e]; rfl

theorem entry_u5 (c : Dev nD) :
    (V m c main_v8 : S16x128.Idx → EReal) = val_main_v19 (F := Ideal) (m ((c : Thread nD τ).loc main_arg6)) := by
  have e : (V m c main_v8 : S16x128.Idx → EReal)
      = transpose S16x128 [1, 0] (m ((c : Thread nD τ).loc main_arg6)) transposes_S128x16_S16x128_1_0 := by
    dsimp only [Gen.V, Gen.hostOps0]; after_results; try rfl
  rw [e]; rfl

theorem entry_u6 (c : Dev nD) :
    (V m c main_v9 : S16x128.Idx → EReal) = val_main_v22 (F := Ideal) (m ((c : Thread nD τ).loc main_arg7)) := by
  have e : (V m c main_v9 : S16x128.Idx → EReal)
      = transpose S16x128 [1, 0] (m ((c : Thread nD τ).loc main_arg7)) transposes_S128x16_S16x128_1_0 := by
    dsimp only [Gen.V, Gen.hostOps0]; after_results; try rfl
  rw [e]; rfl

theorem entry_u7 (c : Dev nD) :
    (V m c main_v10 : S256x4.Idx → EReal) = val_main_v27 (F := Ideal) (m ((c : Thread nD τ).loc main_arg8)) := by
  have e : (V m c main_v10 : S256x4.Idx → EReal)
      = transpose S256x4 [1, 0] (m ((c : Thread nD τ).loc main_arg8)) transposes_S4x256_S256x4_1_0 := by
    dsimp only [Gen.V, Gen.hostOps0]; after_results; try rfl
  rw [e]; rfl

/-- Both programs' permuted inputs are reshapes of ONE array, so they agree at every row-major position. -/
theorem flat_entry_x (c : Dev nD) (n : ℕ) :
    flat (V m c main_v2 : S1024x1024.Idx → EReal) n
      = flat (val_main_v2 (F := Ideal) (m ((c : Thread nD τ).loc main_arg0))) n := by
  rw [entry_x]
  exact (flat_shapeCast _ shapeCasts_S1024x4x8x8x4_S1024x1024 n).trans
    (flat_shapeCast (Cert.ReferenceIdeal.Read.val_main_v1 (F := Ideal) (m ((c : Thread nD τ).loc main_arg0)))
      Cert.ReferenceIdeal.Gen.shapeCasts_S1024x4x8x8x4_S262144x4 n).symm

/-! ## The blocks at a grid point -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 128 grid points: the input's and the result's block at point `t` is
    block row `t`; every other window's block is its whole array. -/
theorem index_at : ∀ t : Fin cfg0.N,
    (win0_0.index t (0 : Fin 2) = t.val ∧ win0_0.index t (1 : Fin 2) = 0)
    ∧ (win0_10.index t (0 : Fin 2) = t.val ∧ win0_10.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0 :=
  (by decide +kernel : ∀ t : Fin grid0.N, _)

theorem point_lt (t : Fin cfg0.N) : t.val < 128 := by
  have h : cfg0.N = 128 := N_0
  have := t.isLt
  omega

/-- Entry `(r, j)` of the input's block at point `t` is entry `(8t + r, j)` of its array. -/
theorem xblock_apply (c : Dev nD) (t : Fin cfg0.N) (r : Fin 8) (j : Fin 1024) :
    (iblk m c 0 t : S8x1024.Idx → EReal) (ix2 r j)
      = (V m c main_v2 : S1024x1024.Idx → EReal)
          (ix2 (⟨8 * t.val + r.val, by have := point_lt t; have := r.isLt; omega⟩ : Fin 1024) j) := by
  obtain ⟨⟨e0, e1⟩, -⟩ := index_at t
  show V m c main_v2 (((cfg0.win 0).blk t).view.emb (ix2 r j)) = V m c main_v2 _
  congr 1
  funext a; apply Fin.ext
  match a with
  | ⟨0, _⟩ => show win0_0.index t (0 : Fin 2) * 8 + 1 * r.val = 8 * t.val + r.val; omega
  | ⟨1, _⟩ => show win0_0.index t (1 : Fin 2) * 1024 + 1 * j.val = j.val; omega

/-- So the input's block at point `t` is the `t`-th band of 8192 positions of the reference's permuted input. -/
theorem xblock_band (c : Dev nD) (t : Fin cfg0.N) :
    Band 8192 t.val (iblk m c 0 t : S8x1024.Idx → EReal)
      (val_main_v2 (F := Ideal) (m ((c : Thread nD τ).loc main_arg0))) := by
  intro o ho
  have ht := point_lt t
  have hr : o / 1024 < 8 := by omega
  have hj : o % 1024 < 1024 := Nat.mod_lt _ (by norm_num)
  refine (flat_ix2' (iblk m c 0 t : S8x1024.Idx → EReal) o (o / 1024) (o % 1024) hr hj (by omega)).trans ?_
  refine Eq.trans ?_ (flat_entry_x m c (8192 * t.val + o))
  refine Eq.trans ?_ (flat_ix2' (V m c main_v2 : S1024x1024.Idx → EReal) (8192 * t.val + o) (8 * t.val + o / 1024)
    (o % 1024) (by omega) hj (by omega)).symm
  exact xblock_apply m c t ⟨o / 1024, hr⟩ ⟨o % 1024, hj⟩

/-! ## The weights' and the bias's blocks are their whole arrays -/

theorem wblock1 (c : Dev nD) (t : Fin cfg0.N) (y : S4x256.Idx) :
    (iblk m c 1 t : S4x256.Idx → EReal) y = val_main_v3 (F := Ideal) (m ((c : Thread nD τ).loc main_arg1)) y := by
  obtain ⟨-, -, i1, i2, i3, i4, i5, i6, i7, i8, i9⟩ := index_at t
  refine Eq.trans ?_ (congrFun (entry_u0 m c) y)
  show V m c main_v3 (((cfg0.win 1).blk t).view.emb y) = V m c main_v3 y
  congr 1
  funext a; apply Fin.ext
  match a with
  | ⟨0, _⟩ => show win0_1.index t (0 : Fin 2) * 4 + 1 * (y 0).val = (y 0).val; omega
  | ⟨1, _⟩ => show win0_1.index t (1 : Fin 2) * 256 + 1 * (y 1).val = (y 1).val; omega

theorem wblock2 (c : Dev nD) (t : Fin cfg0.N) (y : S128x16.Idx) :
    (iblk m c 2 t : S128x16.Idx → EReal) y = val_main_v8 (F := Ideal) (m ((c : Thread nD τ).loc main_arg2)) y := by
  obtain ⟨-, -, i1, i2, i3, i4, i5, i6, i7, i8, i9⟩ := index_at t
  refine Eq.trans ?_ (congrFun (entry_u1 m c) y)
  show V m c main_v4 (((cfg0.win 2).blk t).view.emb y) = V m c main_v4 y
  congr 1
  funext a; apply Fin.ext
  match a with
  | ⟨0, _⟩ => show win0_2.index t (0 : Fin 2) * 128 + 1 * (y 0).val = (y 0).val; omega
  | ⟨1, _⟩ => show win0_2.index t (1 : Fin 2) * 16 + 1 * (y 1).val = (y 1).val; omega

theorem wblock3 (c : Dev nD) (t : Fin cfg0.N) (y : S128x16.Idx) :
    (iblk m c 3 t : S128x16.Idx → EReal) y = val_main_v11 (F := Ideal) (m ((c : Thread nD τ).loc main_arg3)) y := by
  obtain ⟨-, -, i1, i2, i3, i4, i5, i6, i7, i8, i9⟩ := index_at t
  refine Eq.trans ?_ (congrFun (entry_u2 m c) y)
  show V m c main_v5 (((cfg0.win 3).blk t).view.emb y) = V m c main_v5 y
  congr 1
  funext a; apply Fin.ext
  match a with
  | ⟨0, _⟩ => show win0_3.index t (0 : Fin 2) * 128 + 1 * (y 0).val = (y 0).val; omega
  | ⟨1, _⟩ => show win0_3.index t (1 : Fin 2) * 16 + 1 * (y 1).val = (y 1).val; omega

theorem wblock4 (c : Dev nD) (t : Fin cfg0.N) (y : S64x16.Idx) :
    (iblk m c 4 t : S64x16.Idx → EReal) y = val_main_v14 (F := Ideal) (m ((c : Thread nD τ).loc main_arg4)) y := by
  obtain ⟨-, -, i1, i2, i3, i4, i5, i6, i7, i8, i9⟩ := index_at t
  refine Eq.trans ?_ (congrFun (entry_u3 m c) y)
  show V m c main_v6 (((cfg0.win 4).blk t).view.emb y) = V m c main_v6 y
  congr 1
  funext a; apply Fin.ext
  match a with
  | ⟨0, _⟩ => show win0_4.index t (0 : Fin 2) * 64 + 1 * (y 0).val = (y 0).val; omega
  | ⟨1, _⟩ => show win0_4.index t (1 : Fin 2) * 16 + 1 * (y 1).val = (y 1).val; omega

theorem wblock5 (c : Dev nD) (t : Fin cfg0.N) (y : S16x64.Idx) :
    (iblk m c 5 t : S16x64.Idx → EReal) y = val_main_v16 (F := Ideal) (m ((c : Thread nD τ).loc main_arg5)) y := by
  obtain ⟨-, -, i1, i2, i3, i4, i5, i6, i7, i8, i9⟩ := index_at t
  refine Eq.trans ?_ (congrFun (entry_u4 m c) y)
  show V m c main_v7 (((cfg0.win 5).blk t).view.emb y) = V m c main_v7 y
  congr 1
  funext a; apply Fin.ext
  match a with
  | ⟨0, _⟩ => show win0_5.index t (0 : Fin 2) * 16 + 1 * (y 0).val = (y 0).val; omega
  | ⟨1, _⟩ => show win0_5.index t (1 : Fin 2) * 64 + 1 * (y 1).val = (y 1).val; omega

theorem wblock6 (c : Dev nD) (t : Fin cfg0.N) (y : S16x128.Idx) :
    (iblk m c 6 t : S16x128.Idx → EReal) y = val_main_v19 (F := Ideal) (m ((c : Thread nD τ).loc main_arg6)) y := by
  obtain ⟨-, -, i1, i2, i3, i4, i5, i6, i7, i8, i9⟩ := index_at t
  refine Eq.trans ?_ (congrFun (entry_u5 m c) y)
  show V m c main_v8 (((cfg0.win 6).blk t).view.emb y) = V m c main_v8 y
  congr 1
  funext a; apply Fin.ext
  match a with
  | ⟨0, _⟩ => show win0_6.index t (0 : Fin 2) * 16 + 1 * (y 0).val = (y 0).val; omega
  | ⟨1, _⟩ => show win0_6.index t (1 : Fin 2) * 128 + 1 * (y 1).val = (y 1).val; omega

theorem wblock7 (c : Dev nD) (t : Fin cfg0.N) (y : S16x128.Idx) :
    (iblk m c 7 t : S16x128.Idx → EReal) y = val_main_v22 (F := Ideal) (m ((c : Thread nD τ).loc main_arg7)) y := by
  obtain ⟨-, -, i1, i2, i3, i4, i5, i6, i7, i8, i9⟩ := index_at t
  refine Eq.trans ?_ (congrFun (entry_u6 m c) y)
  show V m c main_v9 (((cfg0.win 7).blk t).view.emb y) = V m c main_v9 y
  congr 1
  funext a; apply Fin.ext
  match a with
  | ⟨0, _⟩ => show win0_7.index t (0 : Fin 2) * 16 + 1 * (y 0).val = (y 0).val; omega
  | ⟨1, _⟩ => show win0_7.index t (1 : Fin 2) * 128 + 1 * (y 1).val = (y 1).val; omega

theorem wblock8 (c : Dev nD) (t : Fin cfg0.N) (y : S256x4.Idx) :
    (iblk m c 8 t : S256x4.Idx → EReal) y = val_main_v27 (F := Ideal) (m ((c : Thread nD τ).loc main_arg8)) y := by
  obtain ⟨-, -, i1, i2, i3, i4, i5, i6, i7, i8, i9⟩ := index_at t
  refine Eq.trans ?_ (congrFun (entry_u7 m c) y)
  show V m c main_v10 (((cfg0.win 8).blk t).view.emb y) = V m c main_v10 y
  congr 1
  funext a; apply Fin.ext
  match a with
  | ⟨0, _⟩ => show win0_8.index t (0 : Fin 2) * 256 + 1 * (y 0).val = (y 0).val; omega
  | ⟨1, _⟩ => show win0_8.index t (1 : Fin 2) * 4 + 1 * (y 1).val = (y 1).val; omega

theorem wblock9 (c : Dev nD) (t : Fin cfg0.N) (y : S1024.Idx) :
    (iblk m c 9 t : S1024.Idx → EReal) y = (m ((c : Thread nD τ).loc main_arg9) : S1024.Idx → EReal) y := by
  obtain ⟨-, -, i1, i2, i3, i4, i5, i6, i7, i8, i9⟩ := index_at t
  refine Eq.trans ?_ (congrFun (V_main_arg9 m c) y)
  show V m c main_arg9 (((cfg0.win 9).blk t).view.emb y) = V m c main_arg9 y
  congr 1
  funext a; apply Fin.ext
  match a with
  | ⟨0, _⟩ => show win0_9.index t (0 : Fin 1) * 1024 + 1 * (y 0).val = (y 0).val; omega

/-! ## What a grid point writes back -/

/-- The reference's result on core `c`'s ten argument arrays. -/
abbrev result (c : Dev nD) : S1024x1024.Idx → EReal :=
  val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- One tile, as a function of the tile's index: the body's value on the `t`-th band of the permuted input is rows
    `8t … 8t+7` of the reference's result. -/
theorem tile_rows (t : Fin cfg0.N)
    (xb : Vec Ideal S8x1024 .f32) (u0 : Vec Ideal S4x256 .f32) (u1 u2 : Vec Ideal S128x16 .f32)
    (u3 : Vec Ideal S64x16 .f32) (u4 : Vec Ideal S16x64 .f32) (u5 u6 : Vec Ideal S16x128 .f32)
    (u7 : Vec Ideal S256x4 .f32) (b : Vec Ideal S1024 .f32)
    (x : (⟨Cert.ReferenceIdeal.S1024x1024, .f32⟩ : BufTy).Contents (Elt Ideal))
    (w0 : (⟨Cert.ReferenceIdeal.S256x4, .f32⟩ : BufTy).Contents (Elt Ideal))
    (w1 w2 : (⟨Cert.ReferenceIdeal.S16x128, .f32⟩ : BufTy).Contents (Elt Ideal))
    (w3 : (⟨Cert.ReferenceIdeal.S16x64, .f32⟩ : BufTy).Contents (Elt Ideal))
    (w4 : (⟨Cert.ReferenceIdeal.S64x16, .f32⟩ : BufTy).Contents (Elt Ideal))
    (w5 w6 : (⟨Cert.ReferenceIdeal.S128x16, .f32⟩ : BufTy).Contents (Elt Ideal))
    (w7 : (⟨Cert.ReferenceIdeal.S4x256, .f32⟩ : BufTy).Contents (Elt Ideal))
    (bias : (⟨Cert.ReferenceIdeal.S1024, .f32⟩ : BufTy).Contents (Elt Ideal))
    (hx : Band 8192 t.val xb (val_main_v2 (F := Ideal) x))
    (h0 : ∀ i, u0 i = val_main_v3 (F := Ideal) w0 i) (h1 : ∀ i, u1 i = val_main_v8 (F := Ideal) w1 i)
    (h2 : ∀ i, u2 i = val_main_v11 (F := Ideal) w2 i) (h3 : ∀ i, u3 i = val_main_v14 (F := Ideal) w3 i)
    (h4 : ∀ i, u4 i = val_main_v16 (F := Ideal) w4 i) (h5 : ∀ i, u5 i = val_main_v19 (F := Ideal) w5 i)
    (h6 : ∀ i, u6 i = val_main_v22 (F := Ideal) w6 i) (h7 : ∀ i, u7 i = val_main_v27 (F := Ideal) w7 i)
    (hb : ∀ i, b i = bias i) (y : S8x1024.Idx) (i : S1024x1024.Idx)
    (hi0 : (i 0).val = 8 * t.val + (y 0).val) (hi1 : (i 1).val = (y 1).val) :
    k0_pay1 (F := Ideal) (k0_pay2 (F := Ideal) xb u0 u1 u2 u3 u4 u5) u6 u7 b y
      = val_main_v32 (F := Ideal) x w0 w1 w2 w3 w4 w5 w6 w7 bias i := by
  have e := payload_band t.val (point_lt t) xb u0 u1 u2 u3 u4 u5 u6 u7 b x w0 w1 w2 w3 w4 w5 w6 w7 bias hx h0 h1 h2 h3
    h4 h5 h6 h7 hb (y 0) (y 1)
  refine (congrArg (k0_pay1 (F := Ideal) (k0_pay2 (F := Ideal) xb u0 u1 u2 u3 u4 u5) u6 u7 b) (eq_ix2 y)).trans
    (e.trans (congrArg _ ?_))
  funext a; apply Fin.ext
  match a with
  | ⟨0, _⟩ => exact hi0.symm
  | ⟨1, _⟩ => exact hi1.symm

/-- WHAT POINT `t` WRITES BACK is block `t` of the reference's result. -/
theorem flushed_eq (c : Dev nD) (t : Fin cfg0.N) :
    (dats m 0 c).flushed 10 t = ((cfg0.win 10).blk t).view.read (Elt Ideal) (result m c) := by
  rw [Value.flushed10]
  unfold out0_10
  rw [View.canon_unit_zero zeros2]
  simp only [View.ld_unit_zero (S := S8x1024) zeros2, View.ld_unit_zero (S := S4x256) zeros2,
    View.ld_unit_zero (S := S128x16) zeros2, View.ld_unit_zero (S := S64x16) zeros2,
    View.ld_unit_zero (S := S16x64) zeros2, View.ld_unit_zero (S := S16x128) zeros2,
    View.ld_unit_zero (S := S256x4) zeros2, View.ld_unit_zero (S := S1024) zeros1]
  obtain ⟨-, ⟨e0, e1⟩, -⟩ := index_at t
  funext j
  show k0_pay1 (F := Ideal) (k0_pay2 (F := Ideal) (iblk m c 0 t) (iblk m c 1 t) (iblk m c 2 t) (iblk m c 3 t)
      (iblk m c 4 t) (iblk m c 5 t) (iblk m c 6 t)) (iblk m c 7 t) (iblk m c 8 t) (iblk m c 9 t) j
    = result m c (((cfg0.win 10).blk t).view.emb j)
  refine tile_rows t (iblk m c 0 t) (iblk m c 1 t) (iblk m c 2 t) (iblk m c 3 t) (iblk m c 4 t) (iblk m c 5 t)
    (iblk m c 6 t) (iblk m c 7 t) (iblk m c 8 t) (iblk m c 9 t)
    (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))
    (xblock_band m c t) (wblock1 m c t) (wblock2 m c t) (wblock3 m c t) (wblock4 m c t) (wblock5 m c t)
    (wblock6 m c t) (wblock7 m c t) (wblock8 m c t) (wblock9 m c t) j _ ?_ ?_
  · show win0_10.index t (0 : Fin 2) * 8 + 1 * (j 0).val = 8 * t.val + (j 0).val; omega
  · show win0_10.index t (1 : Fin 2) * 1024 + 1 * (j 1).val = (j 1).val; omega

/-! ## The blocks cover the array -/

/-- An index of the result array is in point `t`'s block iff each coordinate is in the block's range on its axis. -/
theorem mem_blk (t : Fin cfg0.N) (i : S1024x1024.Idx) :
    i ∈ ((cfg0.win 10).blk t).view.set ↔ ∀ a : Fin 2, win0_10.index t a * S8x1024.size a ≤ (i a).val
      ∧ (i a).val < win0_10.index t a * S8x1024.size a + S8x1024.size a := by
  show i ∈ ((View.whole main_v11).slice (win0_10.rect t)).set ↔ _
  rw [View.set_slice_whole, Rect.mem_set_unit]
  exact Iff.rfl

/-- Row `r` is in the block of point `r / 8`. -/
theorem covered (i : S1024x1024.Idx) :
    ∃ t : Fin cfg0.N, (cfg0.win 10).flush t = true ∧ i ∈ ((cfg0.win 10).blk t).view.set := by
  have hi0 : (i 0).val < 1024 := (i 0).isLt
  have hi1 : (i 1).val < 1024 := (i 1).isLt
  have hN : cfg0.N = 128 := N_0
  refine ⟨⟨(i 0).val / 8, by omega⟩, flush0_10 _, ?_⟩
  obtain ⟨-, ⟨e0, e1⟩, -⟩ := index_at ⟨(i 0).val / 8, by omega⟩
  rw [mem_blk]
  intro a
  match a with
  | ⟨0, _⟩ =>
    show win0_10.index ⟨(i 0).val / 8, _⟩ (0 : Fin 2) * 8 ≤ (i 0).val
      ∧ (i 0).val < win0_10.index ⟨(i 0).val / 8, _⟩ (0 : Fin 2) * 8 + 8
    rw [e0]; show (i 0).val / 8 * 8 ≤ (i 0).val ∧ (i 0).val < (i 0).val / 8 * 8 + 8; omega
  | ⟨1, _⟩ =>
    show win0_10.index ⟨(i 0).val / 8, _⟩ (1 : Fin 2) * 1024 ≤ (i 1).val
      ∧ (i 1).val < win0_10.index ⟨(i 0).val / 8, _⟩ (1 : Fin 2) * 1024 + 1024
    rw [e1]; omega

/-- THE ARRAY after the run is the reference's result. -/
theorem final (c : Dev nD) : (dats m 0 c).arrAt 10 cfg0.N = result m c :=
  (dats m 0 c).arrAt_eq_of_cover 10 (result m c) (fun t _ => flushed_eq m c t) covered

/-! ## The run, read -/

/-- The kernel's run: the result array at the reference's result of the ten arguments, the arguments unchanged. -/
theorem kernel_run : θ_run Cert.KernelIdeal.defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run Cert.KernelIdeal.defs _ _).mono (fun r h c => ⟨(h c).1.trans (final m c), (h c).2⟩)
    (Cert.KernelIdeal.Value.run_blocks m ρ)

end Cert.TensorRing

end
-- ==== Proof.lean ====
/-
  A tensor-ring linear layer against its plain reference, equal on the extended reals.

  Both programs permute each batch row's 1024 features (a reshape to [4, 8, 8, 4], the four feature axes reversed) and
  send it through eight contractions with the transposed weights — contracted lengths 4, 128, 128, 64, 16, 16, 16, 256 —
  with reshapes between them and two transposes, one after the first contraction and one before the last, and add the
  bias. The reference runs the chain on all 1024 batch rows at once; the kernel runs it on tiles of eight rows, one grid
  point per tile. No reshape or transpose of the chain moves an entry from one batch row to another: every
  reshape keeps each row's entries contiguous (65536, 8192, 1024, 256, 1024, 8192, 65536, 1024 entries per row after the
  eight products) and both transposes act inside a row's 65536 entries. So, stage by stage, the tile's array is the
  `t`-th band of the whole array by row-major positions (Proof/LibRowMajor.lean: a reshape keeps positions, a product
  of a band of rows is the band of the product; Proof/Chain.lean: the chain), and the tiles, written back, make up the
  reference's result (Proof/Blocks.lean). Neither program rounds at this instance (a change of float format is the
  identity, a product into zeros is the plain sum), and the two sides are the same sums, so no law of the extended
  reals beyond that is used and the finiteness of the inputs is never opened.
-/
import proofs.«176001_j50955491999867_1_alg».proof.Defs
import proofs.«176001_j50955491999867_1_alg».proof.Proof.Gen.Kernel
import proofs.«176001_j50955491999867_1_alg».proof.Proof.Gen.Kernel.Skeleton
import proofs.«176001_j50955491999867_1_alg».proof.Proof.Gen.Kernel.Launch
import proofs.«176001_j50955491999867_1_alg».proof.Proof.Gen.Kernel.Points
import proofs.«176001_j50955491999867_1_alg».proof.Proof.Gen.Kernel.Frame
import proofs.«176001_j50955491999867_1_alg».proof.Proof.Gen.KernelIdeal
import proofs.«176001_j50955491999867_1_alg».proof.Proof.Gen.KernelIdeal.Skeleton
import proofs.«176001_j50955491999867_1_alg».proof.Proof.Gen.KernelIdeal.Launch
import proofs.«176001_j50955491999867_1_alg».proof.Proof.Gen.KernelIdeal.Points
import proofs.«176001_j50955491999867_1_alg».proof.Proof.Gen.KernelIdeal.Frame
import proofs.«176001_j50955491999867_1_alg».proof.Proof.Gen.ReferenceIdeal
import proofs.«176001_j50955491999867_1_alg».proof.Proof.Gen.Pre_finite_inputs
import proofs.«176001_j50955491999867_1_alg».proof.Proof.Gen.KernelIdeal.Value
import proofs.«176001_j50955491999867_1_alg».proof.Proof.Gen.ReferenceIdeal.Run
import proofs.«176001_j50955491999867_1_alg».proof.Proof.Gen.ReferenceIdeal.Read
import proofs.«176001_j50955491999867_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the same result array: the kernel's tiles
    make up the reference's result of the kernel's own arguments, and the reference's result is that function of its
    arguments. -/
theorem algebraic : Cert.algebraic_KernelIdeal_ReferenceIdeal := by
  intro m ρ m' ρ' _ hagree
  refine ⟨_, Cert.TensorRing.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v32_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
